-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  natLt_1_32 : 1 < 32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .i1⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BodyPieces.lean ====
/-
  What one run of the kernel body leaves behind, in each of its three control cases, as plain terms.

  The body keeps a 1024 × 1024 accumulator between grid points. At the first point of a run of four (feature block 0) it
  stores the zero block into the accumulator and then adds that point's product to it; at the other points it adds the
  point's product to what the point before left; and at the last point of the run (feature block 3) it also writes the
  thresholded accumulator into the output block. Here each of those leavings is identified with the body's own
  arithmetic applied to the point's two input blocks and the incoming accumulator: a store that covers the whole
  buffer leaves exactly its value, and a load of a buffer just stored whole reads that value back.
-/
import proofs.«172085_j12695923326984_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyPieces

open Cert.KernelIdeal Cert.KernelIdeal.Gen

variable {F : FTy → Type} [FloatOps F]

/-- The offsets of a store or load of a whole block: zero on both axes. -/
theorem origin : (![0, 0] : Fin 2 → Nat) = fun _ => 0 := funext fun a => by fin_cases a <;> rfl

/-- The accumulator after a point that does not start a run (feature blocks 1 and 2): the incoming accumulator `acc`
    plus the product of the point's spike block `a` with its ternarized synapse block `s`. -/
theorem acc_after_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (a s acc : Vec F S1024x1024 .f32) :
    sout0_B_0 c i a3 h3 a4 h4 a5 h5 a6 h6 hc0 hc1 a s acc = k0_pay2 s a acc := by
  unfold sout0_B_0
  rw [View.read_writes_eq_canon _ _ _ (scover0_B_0 c i a3 h3 a4 h4 a5 h5 a6 h6 hc0 hc1 a s acc)]
  unfold kernelRun0_B
  dsimp only
  sl_unfold_words
  rw [View.canon_unit_zero origin]
  simp only [View.readAt_eq_ld, h3.read_unread, h4.read_unread, h6.read_unread, View.ld_unit_zero (S := S1024x1024) origin]

/-- The accumulator after the last point of a run (feature block 3): the same sum. -/
theorem acc_after_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (a s acc : Vec F S1024x1024 .f32) :
    sout0_C_0 c i a3 h3 a4 h4 a5 h5 a6 h6 hc0 hc1 a s acc = k0_pay2 s a acc := by
  unfold sout0_C_0
  rw [View.read_writes_eq_canon _ _ _ (scover0_C_0 c i a3 h3 a4 h4 a5 h5 a6 h6 hc0 hc1 a s acc)]
  unfold kernelRun0_C
  dsimp only
  sl_unfold_words
  rw [View.canon_unit_zero origin]
  simp only [View.readAt_eq_ld, h3.read_unread, h4.read_unread, h6.read_unread, View.ld_unit_zero (S := S1024x1024) origin]

/-- The accumulator after the first point of a run (feature block 0): the zero block the point has just stored, plus
    the point's product. What the accumulator held before does not enter. -/
theorem acc_after_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (a s : Vec F S1024x1024 .f32) :
    sout0_A_0 c i a3 h3 a4 h4 a5 h5 a6 h6 hc0 hc1 a s = k0_pay2 s a (k0_pay1 (F := F)) := by
  unfold sout0_A_0
  rw [View.read_writes_eq_canon _ _ _ (scover0_A_0 c i a3 h3 a4 h4 a5 h5 a6 h6 hc0 hc1 a s)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- The output block the last point of a run writes: the threshold of the accumulator that point has just updated. -/
theorem out_at_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (a s acc : Vec F S1024x1024 .f32) :
    out0_C_2 c i a3 h3 a4 h4 a5 h5 a6 h6 hc0 hc1 a s acc = k0_pay3 (k0_pay2 s a acc) := by
  unfold out0_C_2
  rw [View.read_writes_eq_canon _ _ _ (cover0_C_2 c i a3 h3 a4 h4 a5 h5 a6 h6 hc0 hc1 a s acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

end Cert.KernelIdeal.BodyPieces

end
-- ==== Proof.SpikeSpec.lean ====
/-
  The function both programs compute, stated once over the extended reals, with no program in sight.

  A synapse state `s` is ternarized: its weight is `1` where `s > 1`, `-1` where `s < -1`, and `0` otherwise. The
  membrane current of batch row `p` into output neuron `q` is the sum over the 4096 input features `k` of
  `x(p, k) · weight(s(q, k))`, and the neuron spikes (`1`, else `0`) where that current is at least `1`.

  Two small laws sit beside the definition. A sum over the 4096 features is the sum over four consecutive runs of
  1024 of them: a re-indexing of a finite sum in a commutative monoid, so it holds on the extended reals at the
  infinities too and asks nothing of the inputs. And a one-bit word widened to 32 bits and read as a signed integer
  is the same number as the bit read unsigned: both are `0` or `1`.
-/
import Idealize.ShloMosaic.PureOps.Ideal
import Idealize.ShloMosaic.PureOps.Ideal.Laws
import Idealize.ShloMosaic.Lib.ValueIdx

noncomputable section

open scoped BigOperators

namespace Cert.SpikeSpec

open Idealize.ShloMosaic Idealize.ShloMosaic.ValueIdx

/-- The spike input's shape, batch × input features. -/
abbrev SX : Shape := ⟨2, ![8192, 4096]⟩
/-- The synapse states' shape, output neurons × input features. -/
abbrev SW : Shape := ⟨2, ![4096, 4096]⟩

/-- The ternary weight of one synapse state: `1` above the threshold `1`, `-1` below `-1`, else `0`. The three
    constants stay as the words the programs print; both programs print the same ones, so none is ever evaluated. -/
def weight (s : Ideal .f32) : Ideal .f32 :=
  Scalar.select (FloatOps.cmpf .ogt s (Ideal.ofBits .f32 0x3F800000#32)) (Ideal.ofBits .f32 0x3F800000#32)
    (Scalar.select (FloatOps.cmpf .olt s (Ideal.ofBits .f32 0xBF800000#32)) (Ideal.ofBits .f32 0xBF800000#32)
      (Ideal.ofBits .f32 0x00000000#32))

/-- Whether a membrane current reaches the firing threshold `1`, as the number `1` or `0`. -/
def fires (v : Ideal .f32) : Ideal .f32 :=
  FloatOps.uitofp (F := Ideal) .f32 (FloatOps.cmpf .oge v (Ideal.ofBits .f32 0x3F800000#32))

/-- The membrane current of batch row `p` into neuron `q`: the inner product, over the 4096 input features, of the
    row of spikes with the row of ternary weights. -/
def current (x : FVec Ideal SX .f32) (s : FVec Ideal SW .f32) (p : Fin 8192) (q : Fin 4096) : Ideal .f32 :=
  ∑ k : Fin 4096, x (ix2 p k) * weight (s (ix2 q k))

/-- THE RESULT: the output spikes, index by index. -/
def spikes (x : FVec Ideal SX .f32) (s : FVec Ideal SW .f32) : FVec Ideal SX .f32 :=
  fun i => fires (current x s (i 0) (i 1))

/-- Feature `1024·a + b` of the 4096, for run `a` of four and place `b` in the run. -/
abbrev feature (a : Fin 4) (b : Fin 1024) : Fin 4096 :=
  ⟨b.val + 1024 * a.val, by have := a.isLt; have := b.isLt; omega⟩

/-- A sum over the 4096 features is the sum over the four runs of the sums over each run's 1024 places. -/
theorem sum_features {M : Type*} [AddCommMonoid M] (f : Fin 4096 → M) :
    ∑ k : Fin 4096, f k = ∑ a : Fin 4, ∑ b : Fin 1024, f (feature a b) := by
  rw [← Fintype.sum_prod_type (f := fun ab : Fin 4 × Fin 1024 => f (feature ab.1 ab.2))]
  exact (Fintype.sum_equiv (finProdFinEquiv (m := 4) (n := 1024)) _ _ fun ab => by
    congr 1).symm

/-- A bit widened to 32 bits and read signed is the bit read unsigned. -/
theorem widen_signed_eq_unsigned (b : BitVec 1) :
    FloatOps.sitofp (F := Ideal) .f32 (b.setWidth 32) = FloatOps.uitofp (F := Ideal) .f32 b := by
  have hb : b = 0#1 ∨ b = 1#1 := by
    have : ∀ c : BitVec 1, c = 0#1 ∨ c = 1#1 := by decide
    exact this b
  rcases hb with rfl | rfl <;> simp [FloatOps.sitofp, FloatOps.uitofp]

end Cert.SpikeSpec

end
-- ==== Proof.BodyAt.lean ====
/-
  The kernel body's arithmetic at one entry of a block, over the extended reals.

  The body multiplies the spike block `a` (rows: batch; columns: features) by the transpose of the ternarized synapse
  block (rows: neurons; columns: features): both operands are contracted along their feature axis, so entry `(p, q)`
  of the product is the sum over the block's 1024 features `b` of `a(p, b) · weight(s(q, b))`. The two roundings to
  bf16 in front of the product are the identity on the extended reals. The accumulator update adds this entry to the
  incoming accumulator's; the reset block is zero everywhere; and the output is the firing test of the accumulator.
  The body converts the test's bit to a number by widening it to 32 bits and reading it signed, where the
  specification reads the bit unsigned: the same number.
-/
import proofs.«172085_j12695923326984_1_alg».proof.Proof.Gen.KernelIdeal.Skeleton
import proofs.«172085_j12695923326984_1_alg».proof.Proof.SpikeSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.BodyAt

open Cert.KernelIdeal Cert.KernelIdeal.Gen
open Cert.SpikeSpec (weight fires widen_signed_eq_unsigned)

/-! ## The product's operand indices: rows from the output entry, features from the contraction -/

/-- The spike block is read at the output entry's row … -/
theorem lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and at the contracted feature. -/
theorem lhs_feature (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- The synapse block is read at the row the output entry's COLUMN names (the neuron) … -/
theorem rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and at the contracted feature: the product is with the synapse block's transpose. -/
theorem rhs_feature (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- Entry `(p, q)` of the block product into a zero accumulator: the inner product over the 1024 features of row `p` of
    the left block with row `q` of the right one. -/
theorem product_apply {φ₁ φ₂ : FTy} (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ b : Fin 1024, l (ix2 p b) * r (ix2 q b) := by
  simp only [matmul]
  rw [Ideal.matmul_constant_zero_apply, ← Equiv.sum_comp (contrEquiv1 dot_S1024x1024_S1024x1024_S1024x1024_1_1_0_0_n_n 1024 rfl rfl).symm]
  refine Finset.sum_congr rfl fun b _ => ?_
  have hb := contrEquiv1_symm_val dot_S1024x1024_S1024x1024_S1024x1024_1_1_0_0_n_n 1024 rfl rfl b
  have el : dot_S1024x1024_S1024x1024_S1024x1024_1_1_0_0_n_n.lhsIdx (ix2 p q) ((contrEquiv1 dot_S1024x1024_S1024x1024_S1024x1024_1_1_0_0_n_n 1024 rfl rfl).symm b) = ix2 p b := funext fun a => Fin.ext (by
    match a with
    | ⟨0, _⟩ => exact lhs_row _ _
    | ⟨1, _⟩ => exact (lhs_feature _ _).trans hb)
  have er : dot_S1024x1024_S1024x1024_S1024x1024_1_1_0_0_n_n.rhsIdx (ix2 p q) ((contrEquiv1 dot_S1024x1024_S1024x1024_S1024x1024_1_1_0_0_n_n 1024 rfl rfl).symm b) = ix2 q b := funext fun a => Fin.ext (by
    match a with
    | ⟨0, _⟩ => exact rhs_row _ _
    | ⟨1, _⟩ => exact (rhs_feature _ _).trans hb)
  rw [el, er]

/-! ## The three stored values at an entry -/

/-- The reset block is zero at every entry. -/
theorem reset_apply (j : S1024x1024.Idx) : k0_pay1 (F := Ideal) j = 0 := by
  unfold k0_pay1
  refine (congrFun (shapeCast_self _ _) j).trans ?_
  exact Ideal.ofBits_zero_f32

/-- The accumulator update at entry `(p, q)`: the incoming accumulator there, plus the inner product over the block's
    features of the spike row with the ternary weights of the neuron's synapse row. -/
theorem update_apply (s a acc : Vec Ideal S1024x1024 .f32) (p q : Fin 1024) :
    k0_pay2 (F := Ideal) s a acc (ix2 p q) = acc (ix2 p q) + ∑ b : Fin 1024, a (ix2 p b) * weight (s (ix2 q b)) := by
  unfold k0_pay2
  refine (congrFun (shapeCast_self _ _) (ix2 p q)).trans ?_
  refine congrArg (acc (ix2 p q) + ·) ?_
  refine (product_apply _ _ p q).trans ?_
  rfl

/-- The output at an entry: whether the accumulator there reaches the firing threshold. -/
theorem output_apply (acc : Vec Ideal S1024x1024 .f32) (j : S1024x1024.Idx) :
    k0_pay3 (F := Ideal) acc j = fires (acc j) := by
  unfold k0_pay3
  exact widen_signed_eq_unsigned _

end Cert.KernelIdeal.BodyAt

end
-- ==== Proof.PointSum.lean ====
/-
  What one grid point adds to the accumulator, and what the four points of a run add up to.

  The grid's points are numbered `n = 4·g + a`: `g` names the output block — its block row `g / 4` of the batch, its block
  column `g % 4` of the neurons — and `a` the feature block. Point `n` adds, to entry `(p, q)` of the accumulator, the
  inner product over its 1024 features of row `1024·(g/4) + p` of the spike input with the ternary weights of row
  `1024·(g%4) + q` of the synapse states. The addend is written for every natural `n`, reading the arrays through a
  total read that is zero off the array; on the grid those reads are always on the array, so the zero is never seen.
  The four addends of a run are the four feature blocks of one inner product over all 4096 features: the membrane
  current of the specification.
-/
import proofs.«172085_j12695923326984_1_alg».proof.Proof.SpikeSpec

noncomputable section

open scoped BigOperators

namespace Cert.SpikeSpec

open Idealize.ShloMosaic Idealize.ShloMosaic.ValueIdx

/-- Entry `(r, k)` of the spike input, and zero off the array. -/
def spikeAt (x : FVec Ideal SX .f32) (r k : ℕ) : Ideal .f32 :=
  if h : r < 8192 ∧ k < 4096 then x (ix2 ⟨r, h.1⟩ ⟨k, h.2⟩) else 0

/-- Entry `(r, k)` of the synapse states, and zero off the array. -/
def stateAt (s : FVec Ideal SW .f32) (r k : ℕ) : Ideal .f32 :=
  if h : r < 4096 ∧ k < 4096 then s (ix2 ⟨r, h.1⟩ ⟨k, h.2⟩) else 0

/-- On the array the total read is the array's entry. -/
theorem spikeAt_eq (x : FVec Ideal SX .f32) (r k : ℕ) (R : Fin 8192) (K : Fin 4096) (hr : r = R.val) (hk : k = K.val) :
    spikeAt x r k = x (ix2 R K) := by
  subst hr hk
  unfold spikeAt
  rw [dif_pos ⟨R.isLt, K.isLt⟩]

theorem stateAt_eq (s : FVec Ideal SW .f32) (r k : ℕ) (R : Fin 4096) (K : Fin 4096) (hr : r = R.val) (hk : k = K.val) :
    stateAt s r k = s (ix2 R K) := by
  subst hr hk
  unfold stateAt
  rw [dif_pos ⟨R.isLt, K.isLt⟩]

/-- One block's entries. -/
abbrev SB : Shape := ⟨2, ![1024, 1024]⟩

/-- What grid point `n` adds to entry `j` of the accumulator. -/
def addend (x : FVec Ideal SX .f32) (s : FVec Ideal SW .f32) (n : ℕ) (j : SB.Idx) : Ideal .f32 :=
  ∑ b : Fin 1024, spikeAt x (1024 * (n / 16) + (j 0).val) (1024 * (n % 4) + b.val)
    * weight (stateAt s (1024 * (n / 4 % 4) + (j 1).val) (1024 * (n % 4) + b.val))

/-- The four addends of run `g`, at entry `(p, q)`, sum to the membrane current of batch row `P = 1024·(g/4) + p` into
    neuron `Q = 1024·(g%4) + q`: the run's four feature blocks are the 4096 features, each once. -/
theorem run_sum (x : FVec Ideal SX .f32) (s : FVec Ideal SW .f32) (g : ℕ) (p q : Fin 1024) (P : Fin 8192) (Q : Fin 4096)
    (hP : P.val = 1024 * (g / 4) + p.val) (hQ : Q.val = 1024 * (g % 4) + q.val) :
    ∑ a ∈ Finset.range 4, addend x s (4 * g + a) (ix2 p q) = current x s P Q := by
  unfold current
  rw [sum_features, Finset.sum_range]
  refine Finset.sum_congr rfl fun a _ => ?_
  unfold addend
  refine Finset.sum_congr rfl fun b _ => ?_
  have ha := a.isLt
  have e1 : (4 * g + a.val) / 16 = g / 4 := by omega
  have e2 : (4 * g + a.val) % 4 = a.val := by omega
  have e3 : (4 * g + a.val) / 4 % 4 = g % 4 := by omega
  rw [e1, e2, e3]
  rw [spikeAt_eq x _ _ P (feature a b) hP.symm (by show _ = b.val + 1024 * a.val; omega),
    stateAt_eq s _ _ Q (feature a b) hQ.symm (by show _ = b.val + 1024 * a.val; omega)]

end Cert.SpikeSpec

end
-- ==== Proof.Blocks.lean ====
/-
  Which part of each array a grid point's blocks are.

  The grid is 8 × 4 × 4 (batch blocks × neuron blocks × feature blocks), walked with the feature block fastest, so
  point `t` has batch block `t / 16`, neuron block `t / 4 % 4` and feature block `t % 4`. The spike window's block at `t`
  is (batch block, feature block) of the spike input, the synapse window's is (neuron block, feature block) of the
  synapse states, and the output window's is (batch block, neuron block) of the result. So entry `(p, b)` of the
  point's spike block is entry `(1024·(t/16) + p, 1024·(t%4) + b)` of the spike input, and entry `(q, b)` of its synapse
  block is entry `(1024·(t/4%4) + q, 1024·(t%4) + b)` of the synapse states.
-/
import proofs.«172085_j12695923326984_1_alg».proof.Proof.Gen.KernelIdeal.Frame
import proofs.«172085_j12695923326984_1_alg».proof.Proof.PointSum
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen
open Cert.SpikeSpec (spikeAt stateAt spikeAt_eq stateAt_eq)

variable (m : (ℓ : Loc nD τ sig) → Buf (Elt Ideal) ℓ)

/-- The three windows' block indices at point `t`, as arithmetic of `t`: decided over the grid's 128 points. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The spike input as the region finds it. -/
abbrev spikeInput (c : Dev nD) : FVec Ideal S8192x4096 .f32 := m ((c : Thread nD τ).loc main_arg0)
/-- The synapse states as the region finds them. -/
abbrev synapseStates (c : Dev nD) : FVec Ideal S4096x4096 .f32 := m ((c : Thread nD τ).loc main_arg1)

/-- Point `t`'s spike block and synapse block, as the 1024 × 1024 blocks of extended reals they are. -/
abbrev spikeBlock (c : Dev nD) (t : Fin cfg0.N) : Vec Ideal S1024x1024 .f32 := iblk m c 0 t
abbrev synapseBlock (c : Dev nD) (t : Fin cfg0.N) : Vec Ideal S1024x1024 .f32 := iblk m c 1 t

/-- Entry `(p, b)` of point `t`'s spike block is the spike input at row `1024·(t/16) + p`, feature `1024·(t%4) + b`. -/
theorem spike_block_apply (c : Dev nD) (t : Fin cfg0.N) (p b : Fin 1024) :
    spikeBlock m c t (ix2 p b)
      = spikeAt (spikeInput m c) (1024 * (t.val / 16) + p.val) (1024 * (t.val % 4) + b.val) := by
  obtain ⟨e0, e1, -, -, -, -⟩ := block_indices t
  have hN : t.val < 128 := lt_of_lt_of_eq t.isLt N_0
  have hp := p.isLt
  have hb := b.isLt
  refine Eq.trans ?_ (spikeAt_eq (spikeInput m c) _ _ ⟨1024 * (t.val / 16) + p.val, by omega⟩ ⟨1024 * (t.val % 4) + b.val, by omega⟩ rfl rfl).symm
  unfold spikeBlock iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 1024 + 1 * b.val = 1024 * (t.val % 4) + b.val; rw [e1]; omega

/-- Entry `(q, b)` of point `t`'s synapse block is the synapse states at row `1024·(t/4%4) + q`, feature `1024·(t%4) + b`. -/
theorem synapse_block_apply (c : Dev nD) (t : Fin cfg0.N) (q b : Fin 1024) :
    synapseBlock m c t (ix2 q b)
      = stateAt (synapseStates m c) (1024 * (t.val / 4 % 4) + q.val) (1024 * (t.val % 4) + b.val) := by
  obtain ⟨-, -, e0, e1, -, -⟩ := block_indices t
  have hN : t.val < 128 := lt_of_lt_of_eq t.isLt N_0
  have hq := q.isLt
  have hb := b.isLt
  refine Eq.trans ?_ (stateAt_eq (synapseStates m c) _ _ ⟨1024 * (t.val / 4 % 4) + q.val, by omega⟩ ⟨1024 * (t.val % 4) + b.val, by omega⟩ rfl rfl).symm
  unfold synapseBlock iblk
  rw [View.read_apply]
  show V m c main_arg1 _ = m ((c : Thread nD τ).loc main_arg1) _
  unfold V
  congr 1
  funext a
  apply Fin.ext
  match a with
  | ⟨0, _⟩ => show win0_1.index t (0 : Fin 2) * 1024 + 1 * q.val = 1024 * (t.val / 4 % 4) + q.val; rw [e0]; omega
  | ⟨1, _⟩ => show win0_1.index t (1 : Fin 2) * 1024 + 1 * b.val = 1024 * (t.val % 4) + b.val; rw [e1]; omega

end Cert.KernelIdeal.Blocks

end
-- ==== Proof.Accumulator.lean ====
/-
  The accumulator after every grid point, and the output block a run's last point writes.

  Within a run of four points `4·g, …, 4·g + 3` the accumulator is reset to zero at the first point and each point adds
  its addend, so after point `t` it holds, entry by entry, the sum of the addends of the points `4·(t/4), …, t`: a fold
  from the run's reset, each step an addition, unrolled into a sum over the run's points so far. At the run's last
  point the sum is over all four points, which is the membrane current, and the block written to the output is the
  firing test of it.
-/
import proofs.«172085_j12695923326984_1_alg».proof.Proof.Gen.KernelIdeal.Value
import proofs.«172085_j12695923326984_1_alg».proof.Proof.BodyPieces
import proofs.«172085_j12695923326984_1_alg».proof.Proof.BodyAt
import proofs.«172085_j12695923326984_1_alg».proof.Proof.Blocks
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Accumulator

open Cert.KernelIdeal Cert.KernelIdeal.Gen Cert.KernelIdeal.Value
open Cert.SpikeSpec (addend weight fires current run_sum)
open Cert.KernelIdeal.Blocks (spikeInput synapseStates spikeBlock synapseBlock spike_block_apply synapse_block_apply)

variable (m : (ℓ : Loc nD τ sig) → Buf (Elt Ideal) ℓ)

/-- The inner product a point's body forms at entry `(p, q)`, over its two blocks, is the point's addend there, read off
    the two arrays. -/
theorem product_eq_addend (c : Dev nD) (t : Fin cfg0.N) (p q : Fin 1024) :
    ∑ b : Fin 1024, spikeBlock m c t (ix2 p b) * weight (synapseBlock m c t (ix2 q b))
      = addend (spikeInput m c) (synapseStates m c) t.val (ix2 p q) := by
  unfold addend
  refine Finset.sum_congr rfl fun b _ => ?_
  exact congrArg₂ (· * ·) (spike_block_apply m c t p b) (congrArg weight (synapse_block_apply m c t q b))

/-- A point that starts a run leaves the zero block plus its addend, whatever the accumulator held. -/
theorem step_first (c : Dev nD) (n : ℕ) (h : n < cfg0.N) (hn : n % 4 = 0) (acc : Vec Ideal S1024x1024 .f32)
    (j : S1024x1024.Idx) :
    scAt0_0 m c n h acc j = 0 + addend (spikeInput m c) (synapseStates m c) n j := by
  obtain ⟨p, q, rfl⟩ : ∃ (p q : Fin 1024), j = ix2 p q := ⟨j 0, j 1, eq_ix2 j⟩
  have h1 : ¬n % 4 = 3 := by omega
  unfold scAt0_0
  rw [dif_pos hn, dif_neg h1]
  refine (congrFun (BodyPieces.acc_after_first (F := Ideal) c (grid0.coords (⟨n, h⟩ : Fin cfg0.N)) (ms0_0 (⟨n, h⟩ : Fin cfg0.N)) (hs0_0 (⟨n, h⟩ : Fin cfg0.N))
    (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
    ((hcond0_0 (⟨n, h⟩ : Fin cfg0.N)).mpr hn) (fun h' => h1 ((hcond0_1 (⟨n, h⟩ : Fin cfg0.N)).mp h'))
    (spikeBlock m c ⟨n, h⟩) (synapseBlock m c ⟨n, h⟩)) (ix2 p q)).trans ?_
  refine (BodyAt.update_apply (synapseBlock m c ⟨n, h⟩) (spikeBlock m c ⟨n, h⟩) _ p q).trans ?_
  rw [BodyAt.reset_apply, product_eq_addend m c ⟨n, h⟩ p q]

/-- Any other point adds its addend to what the point before left. -/
theorem step_next (c : Dev nD) (n : ℕ) (h : n < cfg0.N) (hn : ¬n % 4 = 0) (acc : Vec Ideal S1024x1024 .f32)
    (j : S1024x1024.Idx) :
    scAt0_0 m c n h acc j = acc j + addend (spikeInput m c) (synapseStates m c) n j := by
  obtain ⟨p, q, rfl⟩ : ∃ (p q : Fin 1024), j = ix2 p q := ⟨j 0, j 1, eq_ix2 j⟩
  unfold scAt0_0
  rw [dif_neg hn]
  by_cases h1 : n % 4 = 3
  · rw [dif_pos h1]
    refine (congrFun (BodyPieces.acc_after_last (F := Ideal) c (grid0.coords (⟨n, h⟩ : Fin cfg0.N)) (ms0_0 (⟨n, h⟩ : Fin cfg0.N)) (hs0_0 (⟨n, h⟩ : Fin cfg0.N))
      (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
      (fun h' => hn ((hcond0_0 (⟨n, h⟩ : Fin cfg0.N)).mp h')) ((hcond0_1 (⟨n, h⟩ : Fin cfg0.N)).mpr h1)
      (spikeBlock m c ⟨n, h⟩) (synapseBlock m c ⟨n, h⟩) acc) (ix2 p q)).trans ?_
    refine (BodyAt.update_apply (synapseBlock m c ⟨n, h⟩) (spikeBlock m c ⟨n, h⟩) acc p q).trans ?_
    rw [product_eq_addend m c ⟨n, h⟩ p q]
  · rw [dif_neg h1]
    refine (congrFun (BodyPieces.acc_after_middle (F := Ideal) c (grid0.coords (⟨n, h⟩ : Fin cfg0.N)) (ms0_0 (⟨n, h⟩ : Fin cfg0.N)) (hs0_0 (⟨n, h⟩ : Fin cfg0.N))
      (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _)
      (fun h' => hn ((hcond0_0 (⟨n, h⟩ : Fin cfg0.N)).mp h')) (fun h' => h1 ((hcond0_1 (⟨n, h⟩ : Fin cfg0.N)).mp h'))
      (spikeBlock m c ⟨n, h⟩) (synapseBlock m c ⟨n, h⟩) acc) (ix2 p q)).trans ?_
    refine (BodyAt.update_apply (synapseBlock m c ⟨n, h⟩) (spikeBlock m c ⟨n, h⟩) acc p q).trans ?_
    rw [product_eq_addend m c ⟨n, h⟩ p q]

/-- THE ACCUMULATOR after point `t`, at an entry: the sum of the addends of the points of `t`'s run up to `t`. -/
theorem acc_apply (c : Dev nD) (t : Fin cfg0.N) (j : S1024x1024.Idx) :
    (outsAt0 m c t.val t.isLt).2 j
      = 0 + ∑ a ∈ Finset.range (t.val % 4 + 1), addend (spikeInput m c) (synapseStates m c) (4 * (t.val / 4) + a) j := by
  refine (congrFun (soutsAt0_0_eq m c t) j).trans ?_
  exact Pipeline.accAt_add_apply (ι := S1024x1024.Idx) (β := Ideal .f32)
    (fun n h => scAt0_0 m c n h (VS0_0.read (Elt Ideal) VS0_0.junk)) (scAt0_0 m c) (fun _ => 0)
    (addend (spikeInput m c) (synapseStates m c)) (4 * (t.val / 4)) 3
    (fun h i => step_first m c _ h (by omega) _ i)
    (fun n h acc i hb he => step_next m c n h (by omega) acc i)
    (t.val % 4) (by omega) _ j

/-- At a run's last point the output block is the firing test of the accumulator the point has just updated. -/
theorem out_eq (c : Dev nD) (t : Fin cfg0.N) (h1 : t.val % 4 = 3) :
    (outsAt0 m c t.val t.isLt).1 = k0_pay3 (F := Ideal) ((outsAt0 m c t.val t.isLt).2) := by
  have h0 : ¬t.val % 4 = 0 := by omega
  rw [outsAt0_C m c t h0 h1]
  dsimp only
  rw [BodyPieces.acc_after_last, BodyPieces.out_at_last]

/-- THE OUTPUT BLOCK a run's last point writes, at entry `(p, q)`: whether the membrane current of batch row `P` into
    neuron `Q` fires, for the row and neuron the entry is in the result (`hP`, `hQ`). -/
theorem out_apply (c : Dev nD) (t : Fin cfg0.N) (h1 : t.val % 4 = 3) (p q : Fin 1024) (P : Fin 8192) (Q : Fin 4096)
    (hP : P.val = 1024 * (t.val / 16) + p.val) (hQ : Q.val = 1024 * (t.val / 4 % 4) + q.val) :
    (outsAt0 m c t.val t.isLt).1 (ix2 p q) = fires (current (spikeInput m c) (synapseStates m c) P Q) := by
  rw [out_eq m c t h1, BodyAt.output_apply, acc_apply, h1, zero_add]
  refine congrArg fires ?_
  exact run_sum _ _ (t.val / 4) p q P Q (by omega) (by omega)

end Cert.KernelIdeal.Accumulator

end
-- ==== Proof.KernelValue.lean ====
/-
  The kernel's result array is the specification's spikes.

  The output window's block is written back only at the last point of each run of four, `t = 4·g + 3`, and its block
  there is (batch block `g / 4`, neuron block `g % 4`) of the result: rows `1024·(t/16) …`, columns `1024·(t/4%4) …`.
  What that point writes is, entry by entry, the firing test of the membrane current of the row and neuron the entry
  lands on — the block of `spikes` at that place. The 32 runs' blocks tile the 8192 × 4096 result: index `(r, c)` lies
  in the block of run `g = 4·(r/1024) + c/1024`. So after the run the result array is `spikes` of the two arguments.
-/
import proofs.«172085_j12695923326984_1_alg».proof.Proof.Accumulator

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Value
open Cert.SpikeSpec (spikes fires current)
open Cert.KernelIdeal.Blocks (spikeInput synapseStates block_indices)

variable (m : (ℓ : Loc nD τ sig) → Buf (Elt Ideal) ℓ) (ρ : Dev nD → PrngReg)

/-- The result array the kernel ends with: the specification's spikes of the two argument arrays as launched. -/
abbrev result (c : Dev nD) : Buf (Elt Ideal) ((c : Thread nD τ).loc main_v0) :=
  spikes (spikeInput m c) (synapseStates m c)

/-- WHAT A RUN'S LAST POINT WRITES BACK is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 4 = 3 := (flush0_2 t).mp hf
  obtain ⟨-, -, -, -, e0, e1⟩ := block_indices t
  rw [flushed2]
  funext y
  obtain ⟨p, q, rfl⟩ : ∃ (p q : Fin 1024), y = ix2 p q := ⟨y 0, y 1, eq_ix2 y⟩
  show (outsAt0 m c t.val t.isLt).1 (ix2 p q)
    = fires (current (spikeInput m c) (synapseStates m c) ((((cfg0.win 2).blk t).view.emb (ix2 p q)) 0) ((((cfg0.win 2).blk t).view.emb (ix2 p q)) 1))
  refine Accumulator.out_apply m c t h1 p q _ _ ?_ ?_
  · show win0_2.index t (0 : Fin 2) * 1024 + 1 * p.val = 1024 * (t.val / 16) + p.val
    rw [e0]; omega
  · show win0_2.index t (1 : Fin 2) * 1024 + 1 * q.val = 1024 * (t.val / 4 % 4) + q.val
    rw [e1]; omega

/-- An index of the result is in point `t`'s output block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the block some run's last point writes back. -/
theorem covered (i : S8192x4096.Idx) :
    ∃ t : Fin cfg0.N, (cfg0.win 2).flush t = true ∧ i ∈ ((cfg0.win 2).blk t).view.set := by
  have hr : (i 0).val < 8192 := (i 0).isLt
  have hc : (i 1).val < 4096 := (i 1).isLt
  have hN : cfg0.N = 128 := N_0
  let t : Fin cfg0.N := ⟨4 * (4 * ((i 0).val / 1024) + (i 1).val / 1024) + 3, by omega⟩
  have ht : t.val = 4 * (4 * ((i 0).val / 1024) + (i 1).val / 1024) + 3 := rfl
  obtain ⟨-, -, -, -, e0, e1⟩ := block_indices t
  refine ⟨t, (flush0_2 t).mpr (by omega), ?_⟩
  rw [mem_block]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 1024 ≤ (i 1).val ∧ (i 1).val < win0_2.index t (1 : Fin 2) * 1024 + 1024
    rw [e1]; omega

/-- THE RESULT ARRAY after the run. -/
theorem final (c : Dev nD) : (dats m 0 c).arrAt 2 cfg0.N = result m c :=
  (dats m 0 c).arrAt_eq_of_cover 2 (result m c) (flushed_eq m c) covered

/-- The kernel's run, read: the result array at the specification's spikes of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.ReferenceValue.lean ====
/-
  The reference computes the specification.

  The reference ternarizes the synapse states entry by entry with the same two comparisons and the same three
  constants as the specification's `weight`, transposes the weights, multiplies the spike input by them contracting
  the spike input's features with the transposed weights' rows — so its entry `(p, q)` is the sum over the 4096
  features `k` of `x(p, k) · weight(s(q, k))`, the transpose having swapped `(k, q)` back to `(q, k)` — and tests the
  product against the firing threshold, converting the test's bit to a number. That is `spikes`, entry by entry.
-/
import proofs.«172085_j12695923326984_1_alg».proof.Proof.Gen.ReferenceIdeal.Read
import proofs.«172085_j12695923326984_1_alg».proof.Proof.SpikeSpec

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read
open Cert.SpikeSpec (spikes current weight fires)

/-- The product reads the spike input at (the entry's row, the feature). -/
theorem spike_index (i : S8192x4096.Idx) (k : Fin 4096) : lidx_main_v8 i k = ix2 (i 0) k :=
  funext fun a => Fin.ext (by match a with | ⟨0, _⟩ => rfl | ⟨1, _⟩ => rfl)

/-- It reads the transposed weights at (the feature, the entry's column), which the transpose takes from the weights at
    (the entry's column, the feature): the neuron's synapse row. -/
theorem weight_index (i : S8192x4096.Idx) (k : Fin 4096) : idx_main_v7 (ridx_main_v8 i k) = ix2 (i 1) k :=
  funext fun a => Fin.ext (by match a with | ⟨0, _⟩ => rfl | ⟨1, _⟩ => rfl)

/-- The reference's ternarized states, at an entry, are the specification's weight of the state there. -/
theorem weights_apply (s : FVec Ideal S4096x4096 .f32) (j : S4096x4096.Idx) :
    val_main_v6 (F := Ideal) s j = weight (s j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  rfl

/-- THE REFERENCE'S RESULT is the specification's spikes of its two arguments. -/
theorem result_eq (x : FVec Ideal S8192x4096 .f32) (s : FVec Ideal S4096x4096 .f32) :
    val_main_v11 (F := Ideal) x s = spikes x s := by
  funext i
  rw [val_main_v11_apply, val_main_v10_apply, val_main_v8_apply, val_main_v9_apply, val_main_cst_4_apply]
  unfold spikes fires current
  refine congrArg (fun v : Ideal .f32 => FloatOps.uitofp (F := Ideal) .f32 (FloatOps.cmpf .oge v (Ideal.ofBits .f32 0x3F800000#32))) ?_
  refine Finset.sum_congr rfl fun k _ => ?_
  rw [val_main_v7_apply, weights_apply, spike_index, weight_index]
  rfl

end Cert.ReferenceIdeal.RefValue

end
-- ==== Proof.lean ====
/-
  A spiking layer with ternarized synapses: the blocked kernel against the plain matrix product.

  Both programs take a spike input `x` (8192 × 4096: batch × input features) and synapse states `s` (4096 × 4096:
  output neurons × input features). A state's weight is `1` above the threshold `1`, `-1` below `-1`, else `0`; the
  membrane current of batch row `p` into neuron `q` is `∑ₖ x(p, k) · weight(s(q, k))` over the 4096 features; the result
  is `1` where the current is at least `1` and `0` elsewhere (Proof/SpikeSpec.lean).

  The reference does exactly that with one matrix product against the transposed weights (Proof/ReferenceValue.lean).
  The kernel tiles the result into 8 × 4 blocks of 1024 × 1024 and the features into four blocks of 1024. For each
  result block it runs four grid points, one per feature block: the first zeroes a carried accumulator, every point
  adds to it the product of its spike block with the transpose of its ternarized synapse block, and the last writes
  the firing test of the accumulator to the result (Proof/BodyPieces.lean, Proof/BodyAt.lean, Proof/Blocks.lean).
  After a run's last point the accumulator holds, entry by entry, the sum of the four feature blocks' inner products
  (Proof/Accumulator.lean, over Proof/PointSum.lean), and the four blocks of 1024 features are the 4096 features, each
  once, so that sum is the membrane current: a regrouping of a finite sum, valid in any commutative monoid and hence
  on the extended reals with their infinities. The 32 result blocks tile the result (Proof/KernelValue.lean). The
  roundings to bf16 in front of the kernel's product are the identity on the extended reals, and the kernel's
  conversion of the firing test's bit (widened to 32 bits, read signed) is the reference's (the bit read unsigned).

  Nothing here uses that the inputs are finite: no law applied needs it. No operation of the kernel was rewritten for
  the reading over the extended reals, so the kernel read there is its own text.
-/
import proofs.«172085_j12695923326984_1_alg».proof.Defs
import proofs.«172085_j12695923326984_1_alg».proof.Proof.Gen.Kernel
import proofs.«172085_j12695923326984_1_alg».proof.Proof.Gen.Kernel.Skeleton
import proofs.«172085_j12695923326984_1_alg».proof.Proof.Gen.Kernel.Launch
import proofs.«172085_j12695923326984_1_alg».proof.Proof.Gen.Kernel.Points
import proofs.«172085_j12695923326984_1_alg».proof.Proof.Gen.Kernel.Frame
import proofs.«172085_j12695923326984_1_alg».proof.Proof.Gen.KernelIdeal
import proofs.«172085_j12695923326984_1_alg».proof.Proof.Gen.KernelIdeal.Skeleton
import proofs.«172085_j12695923326984_1_alg».proof.Proof.Gen.KernelIdeal.Launch
import proofs.«172085_j12695923326984_1_alg».proof.Proof.Gen.KernelIdeal.Points
import proofs.«172085_j12695923326984_1_alg».proof.Proof.Gen.KernelIdeal.Frame
import proofs.«172085_j12695923326984_1_alg».proof.Proof.Gen.ReferenceIdeal
import proofs.«172085_j12695923326984_1_alg».proof.Proof.Gen.KernelIdeal.Value
import proofs.«172085_j12695923326984_1_alg».proof.Proof.Gen.ReferenceIdeal.Run
import proofs.«172085_j12695923326984_1_alg».proof.Proof.Gen.ReferenceIdeal.Read
import proofs.«172085_j12695923326984_1_alg».proof.Proof.Gen.Pre_finite_inputs
import proofs.«172085_j12695923326984_1_alg».proof.Proof.KernelValue
import proofs.«172085_j12695923326984_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: there is nothing to preserve. -/
theorem preserves : Cert.preserves_Kernel_KernelIdeal := trivial

/-- Over the extended reals, from memories that agree on the two arguments, the kernel's result array and the
    reference's both end at the specification's spikes of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
